-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x3x1024x1024 : Shape := ⟨4, ![8, 3, 1024, 1024]⟩
abbrev S_ : Shape := ⟨0, ![]⟩

class Facts : Prop where
  bcast_S_S8x3x1024x1024 : S_.BroadcastsInDim S8x3x1024x1024 (![] : Fin 0 → Fin S8x3x1024x1024.rank)
  reducesTo_S8x3x1024x1024_S_d0_1_2_3 : S8x3x1024x1024.ReducesTo [0, 1, 2, 3] S_
  h_S_ : 0 < S_.numel

variable [Facts]

def fn {F : FTy → Type} [FloatOps F] (main_arg0 : FVec F S8x3x1024x1024 .f32) (main_arg1 : FVec F S8x3x1024x1024 .f32) : IVec S_ 1 :=
  let main_v0 : FVec F S8x3x1024x1024 .f32 := Host.absf main_arg0
  let main_cst : FVec F S_ .f32 := constant S_ .f32 0x7F800000#32
  let main_v1 : FVec F S8x3x1024x1024 .f32 := broadcastInDim S8x3x1024x1024 ![] bcast_S_S8x3x1024x1024 main_cst
  let main_v2 : IVec S8x3x1024x1024 1 := cmpf .olt main_v0 main_v1
  let main_c : IVec S_ 1 := constantI S_ 1 1#1
  let main_v3 : IVec S_ 1 := (fun x v => Host.reduce IntOp.andi x v reducesTo_S8x3x1024x1024_S_d0_1_2_3 h_S_) main_v2 main_c
  let main_v4 : FVec F S8x3x1024x1024 .f32 := Host.absf main_arg1
  let main_cst_0 : FVec F S_ .f32 := constant S_ .f32 0x7F800000#32
  let main_v5 : FVec F S8x3x1024x1024 .f32 := broadcastInDim S8x3x1024x1024 ![] bcast_S_S8x3x1024x1024 main_cst_0
  let main_v6 : IVec S8x3x1024x1024 1 := cmpf .olt main_v4 main_v5
  let main_c_1 : IVec S_ 1 := constantI S_ 1 1#1
  let main_v7 : IVec S_ 1 := (fun x v => Host.reduce IntOp.andi x v reducesTo_S8x3x1024x1024_S_d0_1_2_3 h_S_) main_v6 main_c_1
  let main_v8 : IVec S_ 1 := andi main_v3 main_v7
  main_v8
-- ==== Kernel.lean ====
abbrev S8x3x1024x1024 : Shape := ⟨4, ![8, 3, 1024, 1024]⟩
abbrev S24x1024x1024 : Shape := ⟨3, ![24, 1024, 1024]⟩
abbrev S24 : Shape := ⟨1, ![24]⟩
abbrev S1x1024x1024 : Shape := ⟨3, ![1, 1024, 1024]⟩
abbrev S1024x1024 : Shape := ⟨2, ![1024, 1024]⟩
abbrev S1024 : Shape := ⟨1, ![1024]⟩
abbrev S1024x1 : Shape := ⟨2, ![1024, 1]⟩
abbrev S1x1024 : Shape := ⟨2, ![1, 1024]⟩
abbrev S1 : Shape := ⟨1, ![1]⟩
abbrev S1x1 : Shape := ⟨2, ![1, 1]⟩
abbrev S1x24 : Shape := ⟨2, ![1, 24]⟩
abbrev S_ : Shape := ⟨0, ![]⟩

abbrev nBuf : Space → Nat
  | .hbm => 9
  | .vmem => 5
  | .smem => 0
  | _ => 0

abbrev bufTy : (tb : Table) → Fin (tcTables nBuf tb) → BufTy
  | .hbm, ⟨0, _⟩ => ⟨S8x3x1024x1024, .f32⟩
  | .hbm, ⟨1, _⟩ => ⟨S8x3x1024x1024, .f32⟩
  | .hbm, ⟨2, _⟩ => ⟨S24x1024x1024, .f32⟩
  | .hbm, ⟨3, _⟩ => ⟨S24x1024x1024, .f32⟩
  | .hbm, ⟨4, _⟩ => ⟨S24, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S24, .f32⟩
  | _, _ => ⟨S8x3x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![24], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S24 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  shapeCasts_S8x3x1024x1024_S24x1024x1024 : S8x3x1024x1024.ShapeCasts S24x1024x1024
  inb_S24_S24_0 : ∀ a, (![0] : Fin 1 → Nat) a + S24.size a ≤ S24.size a
  h_S24 : 0 < S24.numel
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  reduces_S1024x1024_S1024 : S1024x1024.Reduces [1] S1024
  shapeCasts_S1024_S1024x1 : S1024.ShapeCasts S1024x1
  transposes_S1024x1_p1_0_S1x1024 : S1024x1.Transposes [1, 0] S1x1024
  bitsLt_bf16_f32 : FTy.bits .bf16 < FTy.bits .f32
  broadcasts_S1024x1_S1024x1024 : S1024x1.Broadcasts S1024x1024
  broadcasts_S1x1024_S1024x1024 : S1x1024.Broadcasts S1024x1024
  reduces_S1024x1_S1 : S1024x1.Reduces [0] S1
  shapeCasts_S1_S1x1 : S1.ShapeCasts S1x1
  reduces_S1024x1024_S1024_2 : S1024x1024.Reduces [0] S1024
  shapeCasts_S1024_S1x1024 : S1024.ShapeCasts S1x1024
  reduces_S1x1024_S1 : S1x1024.Reduces [1] S1
  inpos_S1x1_p0_0 : ∀ a, (![0, 0] : Fin 2 → Nat) a < S1x1.size a
  iota_S1x24_d1_w32 : S1x24.Iotas .tc 32 [1]
  shapeCasts_S1x24_S24 : S1x24.ShapeCasts S24
  shapeCasts_S24_S24 : S24.ShapeCasts S24
  reducesTo_S24_S_d0 : S24.ReducesTo [0] S_
  h_S_ : 0 < S_.numel
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S24x1024x1024.size a
  hwx0_0 : ∀ i : grid0.Coords, EltTy.bits .f32 = 32 ∨ (Rect.block (s := S24x1024x1024) S1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S24x1024x1024.size a
  hwx0_1 : ∀ i : grid0.Coords, EltTy.bits .f32 = 32 ∨ (Rect.block (s := S24x1024x1024) S1x1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S24.size a ≤ S24.size a
  hwx0_2 : ∀ i : grid0.Coords, EltTy.bits .f32 = 32 ∨ (Rect.block (s := S24) S24.size (cc0_transform_2 i) (hinb0_2 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S24.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x3x1024x1024 : Shape := ⟨4, ![8, 3, 1024, 1024]⟩
abbrev S_ : Shape := ⟨0, ![]⟩
abbrev S8x3x1024 : Shape := ⟨3, ![8, 3, 1024]⟩
abbrev S8x3x1024x1 : Shape := ⟨4, ![8, 3, 1024, 1]⟩
abbrev S8x3x1x1024 : Shape := ⟨4, ![8, 3, 1, 1024]⟩
abbrev S8x3 : Shape := ⟨2, ![8, 3]⟩

abbrev nBuf : Space → Nat
  | .hbm => 35
  | .vmem => 0
  | .smem => 0
  | _ => 0

abbrev bufTy : (tb : Table) → Fin (tcTables nBuf tb) → BufTy
  | .hbm, ⟨0, _⟩ => ⟨S8x3x1024x1024, .f32⟩
  | .hbm, ⟨1, _⟩ => ⟨S8x3x1024x1024, .f32⟩
  | .hbm, ⟨2, _⟩ => ⟨S8x3x1024x1024, .f32⟩
  | .hbm, ⟨3, _⟩ => ⟨S_, .f32⟩
  | .hbm, ⟨4, _⟩ => ⟨S8x3x1024, .f32⟩
  | .hbm, ⟨5, _⟩ => ⟨S8x3x1024x1024, .f32⟩
  | .hbm, ⟨6, _⟩ => ⟨S_, .f32⟩
  | .hbm, ⟨7, _⟩ => ⟨S8x3x1024, .f32⟩
  | .hbm, ⟨8, _⟩ => ⟨S8x3x1024x1024, .f32⟩
  | .hbm, ⟨9, _⟩ => ⟨S8x3x1024x1, .f32⟩
  | .hbm, ⟨10, _⟩ => ⟨S8x3x1x1024, .f32⟩
  | .hbm, ⟨11, _⟩ => ⟨S8x3x1024x1024, .f32⟩
  | .hbm, ⟨12, _⟩ => ⟨S8x3x1024x1024, .f32⟩
  | .hbm, ⟨13, _⟩ => ⟨S8x3x1024x1024, .f32⟩
  | .hbm, ⟨14, _⟩ => ⟨S_, .f32⟩
  | .hbm, ⟨15, _⟩ => ⟨S8x3x1024x1024, .f32⟩
  | .hbm, ⟨16, _⟩ => ⟨S8x3x1024x1024, .f32⟩
  | .hbm, ⟨17, _⟩ => ⟨S8x3x1024x1024, .f32⟩
  | .hbm, ⟨18, _⟩ => ⟨S_, .f32⟩
  | .hbm, ⟨19, _⟩ => ⟨S8x3x1024x1024, .f32⟩
  | .hbm, ⟨20, _⟩ => ⟨S8x3x1024x1024, .f32⟩
  | .hbm, ⟨21, _⟩ => ⟨S8x3x1024x1024, .f32⟩
  | .hbm, ⟨22, _⟩ => ⟨S_, .f32⟩
  | .hbm, ⟨23, _⟩ => ⟨S8x3x1024, .f32⟩
  | .hbm, ⟨24, _⟩ => ⟨S_, .f32⟩
  | .hbm, ⟨25, _⟩ => ⟨S8x3, .f32⟩
  | .hbm, ⟨26, _⟩ => ⟨S_, .f32⟩
  | .hbm, ⟨27, _⟩ => ⟨S8x3x1024, .f32⟩
  | .hbm, ⟨28, _⟩ => ⟨S_, .f32⟩
  | .hbm, ⟨29, _⟩ => ⟨S8x3, .f32⟩
  | .hbm, ⟨30, _⟩ => ⟨S8x3, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | _, _ => ⟨S8x3x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_cst_6 : Ref sig .tc := ⟨.hbm, 28, rfl⟩
abbrev main_v19 : Ref sig .tc := ⟨.hbm, 29, rfl⟩
abbrev main_v20 : Ref sig .tc := ⟨.hbm, 30, rfl⟩
abbrev main_cst_7 : Ref sig .tc := ⟨.hbm, 31, rfl⟩
abbrev main_v21 : Ref sig .tc := ⟨.hbm, 32, rfl⟩
abbrev main_cst_8 : Ref sig .tc := ⟨.hbm, 33, rfl⟩
abbrev main_v22 : Ref sig .tc := ⟨.hbm, 34, rfl⟩

abbrev nD : Nat := 1
abbrev τ : Topo := Topo.v7x

variable {F : FTy → Type} [FloatOps F]

class Facts₀ : Prop where
  reducesTo_S8x3x1024x1024_S8x3x1024_d3 : S8x3x1024x1024.ReducesTo [3] S8x3x1024
  h_S_ : 0 < S_.numel
  bcast_S8x3x1024_S8x3x1024x1_0_1_2 : S8x3x1024.BroadcastsInDim S8x3x1024x1 (![0, 1, 2] : Fin 3 → Fin S8x3x1024x1.rank)
  bcast_S8x3x1024_S8x3x1x1024_0_1_3 : S8x3x1024.BroadcastsInDim S8x3x1x1024 (![0, 1, 3] : Fin 3 → Fin S8x3x1x1024.rank)
  bcast_S8x3x1024x1_S8x3x1024x1024_0_1_2_3 : S8x3x1024x1.BroadcastsInDim S8x3x1024x1024 (![0, 1, 2, 3] : Fin 4 → Fin S8x3x1024x1024.rank)
  bcast_S8x3x1x1024_S8x3x1024x1024_0_1_2_3 : S8x3x1x1024.BroadcastsInDim S8x3x1024x1024 (![0, 1, 2, 3] : Fin 4 → Fin S8x3x1024x1024.rank)
  bcast_S_S8x3x1024x1024 : S_.BroadcastsInDim S8x3x1024x1024 (![] : Fin 0 → Fin S8x3x1024x1024.rank)
  reducesTo_S8x3x1024_S8x3_d2 : S8x3x1024.ReducesTo [2] S8x3
  reducesTo_S8x3x1024x1024_S8x3x1024_d2 : S8x3x1024x1024.ReducesTo [2] S8x3x1024
  reducesTo_S8x3_S_d0_1 : S8x3.ReducesTo [0, 1] S_
  dot_S8x3x1024x1024_S8x3x1024x1024_S8x3x1024x1024_3_3_2_2_01_01_wf : DotDims.WF S8x3x1024x1024 S8x3x1024x1024 S8x3x1024x1024 [3] [3] [2] [2] [0, 1] [0, 1]

variable [Facts₀]

def dot_S8x3x1024x1024_S8x3x1024x1024_S8x3x1024x1024_3_3_2_2_01_01 : DotDims S8x3x1024x1024 S8x3x1024x1024 S8x3x1024x1024 where
  lhsContracting := [3]
  rhsContracting := [3]
  lhsNonContracting := [2]
  rhsNonContracting := [2]
  lhsBatch := [0, 1]
  rhsBatch := [0, 1]
  wf := dot_S8x3x1024x1024_S8x3x1024x1024_S8x3x1024x1024_3_3_2_2_01_01_wf

class Facts : Prop extends Facts₀ where

variable [Facts]
-- ==== Proof.Pieces.lean ====
/-
  What one run of the body leaves in the output's staging block, as a value of what it found there.

  At the first grid point the body first stores the zero block, then reads it back, adds the point's value at the point's
  own slot and stores the sum; at every later point it reads the block the point before left, adds and stores. In both
  cases the last store covers the whole block, so the block ends holding exactly that store's payload.
-/
import proofs.«117508_j44796508897916_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]

theorem hz1 : (![0] : Fin 1 → Nat) = fun _ => 0 := funext fun a => by fin_cases a <;> rfl
theorem hz3 : (![0, 0, 0] : Fin 3 → Nat) = fun _ => 0 := funext fun a => by fin_cases a <;> rfl

/-- A later grid point: over the block `xo` the point before left, the body leaves `xo` with the point's value added at the
    point's slot. -/
theorem out_B (c : Dev nD) (i : grid0.Coords) (a1 : Memref sig .tc .vmem S1x1024x1024 .f32) (h1 : a1.IsWhole)
    (a2 : Memref sig .tc .vmem S1x1024x1024 .f32) (h2 : a2.IsWhole) (a3 : Memref sig .tc .vmem S24 .f32) (h3 : a3.IsWhole)
    (hc : ¬cond0_0 i) (x0 x1 : Vec F S1x1024x1024 .f32) (xo : Vec F S24 .f32) :
    out0_B_2 c i a1 h1 a2 h2 a3 h3 hc x0 x1 xo = k0_pay1 (k0_pay3 x0 x1) (k0_pay4 i) xo := by
  unfold out0_B_2
  rw [View.read_writes_eq_canon _ _ _ (cover0_B_2 c i a1 h1 a2 h2 a3 h3 hc x0 x1 xo)]
  unfold kernelRun0_B
  dsimp only
  sl_unfold_words
  rw [View.canon_unit_zero (S := S24) hz1]
  simp only [View.readAt_eq_ld, h1.read_unread, h2.read_unread, h3.read_unread, View.ld_unit_zero (S := S1x1024x1024) hz3,
    View.ld_unit_zero (S := S24) hz1]

/-- The first grid point: the body leaves the zero block with the point's value added at the point's slot. -/
theorem out_A (c : Dev nD) (i : grid0.Coords) (a1 : Memref sig .tc .vmem S1x1024x1024 .f32) (h1 : a1.IsWhole)
    (a2 : Memref sig .tc .vmem S1x1024x1024 .f32) (h2 : a2.IsWhole) (a3 : Memref sig .tc .vmem S24 .f32) (h3 : a3.IsWhole)
    (hc : cond0_0 i) (x0 x1 : Vec F S1x1024x1024 .f32) :
    out0_A_2 c i a1 h1 a2 h2 a3 h3 hc x0 x1 = k0_pay1 (k0_pay3 x0 x1) (k0_pay4 i) (k0_pay2 (F := F)) := by
  unfold out0_A_2
  rw [View.read_writes_eq_canon _ _ _ (cover0_A_2 c i a1 h1 a2 h2 a3 h3 hc x0 x1)]
  unfold kernelRun0_A
  dsimp only
  sl_unfold_words
  rw [View.canon_cons_unit_zero (S := S24) hz1, View.readCov_unit_zero (S := S24) _ hz1]
  simp only [View.readAt_eq_ld, h1.read_unread, h2.read_unread, View.ld_unit_zero (S := S1x1024x1024) hz3]

end Cert.KernelIdeal.Pieces

end
-- ==== Proof.Spec.lean ====
/-
  The mathematics of the symmetric Hausdorff distance between two point sets of 1024 points in 1024 dimensions, over the
  extended reals, and of an accumulator that collects one such distance per pair of sets.

  For point sets X and Y (rows are points) the squared distance of point n of X and point m of Y is expanded as
  |x|² + |y|² − 2·⟨x, y⟩, clamped below at zero, and rooted. The directed distance from X to Y is the largest, over the
  points of X, of the smallest distance to a point of Y; the symmetric distance is the larger of the two directed ones.
  Largest and smallest are folds of max and min from −∞ and +∞ (kept as the binary32 words both programs write).
-/
import Idealize.ShloMosaic.PureOps.Ideal
import Idealize.ShloMosaic.PureOps.Ideal.Laws

noncomputable section

namespace Cert.Hausdorff

open Idealize.ShloMosaic

/-- A point set: 1024 points (rows) of 1024 coordinates each. -/
abbrev Pts := Fin 1024 → Fin 1024 → EReal

/-- The squared norm of point `n`. -/
def sq (X : Pts) (n : Fin 1024) : EReal := ∑ d : Fin 1024, X n d * X n d

/-- The inner product of point `n` of `X` with point `m` of `Y`. -/
def cross (X Y : Pts) (n m : Fin 1024) : EReal := ∑ d : Fin 1024, X n d * Y m d

/-- The distance of point `n` of `X` from point `m` of `Y`: the root of |x|² + |y|² − 2⟨x, y⟩ clamped at zero. -/
def dist (X Y : Pts) (n m : Fin 1024) : EReal :=
  Ideal.sqrt (max ((sq X n + sq Y m) - Ideal.ofBits .f32 0x40000000#32 * cross X Y n m) (Ideal.ofBits .f32 0x00000000#32))

/-- The largest of 1024 values, from −∞. -/
def sup1024 (f : Fin 1024 → EReal) : EReal := (Finset.univ : Finset (Fin 1024)).fold max (Ideal.ofBits .f32 0xFF800000#32) f

/-- The smallest of 1024 values, from +∞. -/
def inf1024 (f : Fin 1024 → EReal) : EReal := (Finset.univ : Finset (Fin 1024)).fold min (Ideal.ofBits .f32 0x7F800000#32) f

/-- The symmetric Hausdorff distance of two point sets. -/
def hd (X Y : Pts) : EReal :=
  max (sup1024 fun n => inf1024 fun m => dist X Y n m) (sup1024 fun m => inf1024 fun n => dist X Y n m)

/-- One step of the accumulator: slot `k` receives `v`, every other slot receives zero. -/
def bump (acc : ℕ → EReal) (k : ℕ) (v : EReal) : ℕ → EReal := fun j => acc j + if j = k then v else 0

/-- The accumulator after steps 0, …, n, started from zero: slot `j ≤ n` holds `H j`, the later slots zero.
    Adding zero changes no extended real, so nothing but the slot's own step is ever seen in it. -/
def accum (H : ℕ → EReal) (n : ℕ) : ℕ → EReal := fun j => if j ≤ n then H j else 0

theorem bump_zero (H : ℕ → EReal) : bump (fun _ => 0) 0 (H 0) = accum H 0 := by
  funext j
  unfold bump accum
  by_cases h : j = 0
  · subst h; simp
  · rw [if_neg h, if_neg (by omega)]; simp

theorem bump_accum (H : ℕ → EReal) (n : ℕ) : bump (accum H n) (n + 1) (H (n + 1)) = accum H (n + 1) := by
  funext j
  unfold bump accum
  by_cases h : j = n + 1
  · subst h; rw [if_neg (by omega), if_pos rfl, if_pos (le_refl _)]; simp
  · rw [if_neg h]
    by_cases h' : j ≤ n
    · rw [if_pos h', if_pos (by omega)]; simp
    · rw [if_neg h', if_neg (by omega)]; simp

end Cert.Hausdorff

end
-- ==== Proof.Layout.lean ====
/-
  Reading a matrix's row and column reductions and its one-column and one-row rearrangements at an index given by
  coordinates: the sum, the smallest and the largest entry of a row or of a column of a 1024 × 1024 matrix, a vector
  laid out as one column, and one column laid across a matrix.
-/
import Idealize.ShloMosaic.PureOps.Ideal.Laws
import Idealize.ShloMosaic.Lib.ValueIdx
import Idealize.ShloMosaic.Lib.ValueLayout
import Idealize.ShloMosaic.Lib.Pipeline.Value

noncomputable section

namespace Cert.Hausdorff

open Idealize.ShloMosaic Idealize.ShloMosaic.ValueIdx

/-- The shapes met: a matrix, a vector, one column, one row, one entry (as a vector and as a matrix). -/
abbrev Mat : Shape := ⟨2, ![1024, 1024]⟩
abbrev Vec1 : Shape := ⟨1, ![1024]⟩
abbrev Col : Shape := ⟨2, ![1024, 1]⟩
abbrev Row : Shape := ⟨2, ![1, 1024]⟩
abbrev One : Shape := ⟨1, ![1]⟩
abbrev One2 : Shape := ⟨2, ![1, 1]⟩

section Layout
variable {α : Type}

/-- A vector laid out as one column reads, at row `n`, its entry `n`. -/
theorem shapeCast_col_apply (x : Vec1.Idx → α) (h : Vec1.ShapeCasts Col) (n : Fin 1024) (u : Fin 1) :
    shapeCast Col x h (ix2 n u) = x (ix1 n) :=
  shapeCast_apply x h _ _ (by
    have hu : u.val = 0 := by omega
    rw [Shape.rowMajor_val_one, Shape.rowMajor_val_two]
    show n.val = n.val * 1 + u.val
    omega)

/-- One column laid across a matrix reads, at `(n, m)`, the column's row `n`. -/
theorem broadcastTo_col_apply (v : Col.Idx → α) (h : Col.Broadcasts Mat) (n m : Fin 1024) :
    broadcastTo Mat v h (ix2 n m) = v (ix2 n (0 : Fin 1)) := by
  refine broadcastTo_apply v h (ix2 n m) (ix2 n (0 : Fin 1)) fun ax => ?_
  match ax with
  | ⟨0, _⟩ =>
    show n.val = if (1024 : Nat) = 1 then 0 else n.val
    rw [if_neg (by decide)]
  | ⟨1, _⟩ =>
    show 0 = if (1 : Nat) = 1 then 0 else m.val
    rw [if_pos rfl]

end Layout

section Reductions

/-- The sum of row `n`. -/
theorem add_row_apply (v : FVec Ideal Mat .f32) (acc : BitVec 32) (h : Mat.Reduces [1] Vec1) (hφ : FKind.Formats .f32)
    (hacc : acc = FKind.add.neutral .f32 hφ) (n : Fin 1024) :
    multiReduction .add [1] Vec1 v acc h hφ hacc (ix1 n) = ∑ k : Fin 1024, v (ix2 n k) := by
  refine (Ideal.multiReduction_add_single v acc h hφ hacc (ix1 n)).trans ?_
  refine Finset.sum_congr rfl fun k _ => congrArg v ?_
  exact funext fun a => Fin.ext (by match a with | ⟨0, _⟩ => rfl | ⟨1, _⟩ => rfl)

/-- The smallest entry of row `n`, from the starting word. -/
theorem min_row_apply (v : FVec Ideal Mat .f32) (acc : BitVec 32) (h : Mat.Reduces [1] Vec1) (hφ : FKind.Formats .f32)
    (hacc : acc = FKind.minimumf.neutral .f32 hφ) (n : Fin 1024) :
    multiReduction .minimumf [1] Vec1 v acc h hφ hacc (ix1 n)
      = (Finset.univ : Finset (Fin 1024)).fold min (Ideal.ofBits .f32 acc) (fun k => v (ix2 n k)) := by
  refine (multiReduction_minimumf_eq_fold v acc h hφ hacc (ix1 n)).trans ?_
  refine (h.fold_filter_drop_single _ _ v (ix1 n)).trans ?_
  refine congrArg (fun g => (Finset.univ : Finset (Fin 1024)).fold min (Ideal.ofBits .f32 acc) g) ?_
  funext k
  exact congrArg v (funext fun a => Fin.ext (by match a with | ⟨0, _⟩ => rfl | ⟨1, _⟩ => rfl))

/-- The smallest entry of column `m`, from the starting word. -/
theorem min_col_apply (v : FVec Ideal Mat .f32) (acc : BitVec 32) (h : Mat.Reduces [0] Vec1) (hφ : FKind.Formats .f32)
    (hacc : acc = FKind.minimumf.neutral .f32 hφ) (m : Fin 1024) :
    multiReduction .minimumf [0] Vec1 v acc h hφ hacc (ix1 m)
      = (Finset.univ : Finset (Fin 1024)).fold min (Ideal.ofBits .f32 acc) (fun k => v (ix2 k m)) := by
  refine (multiReduction_minimumf_eq_fold v acc h hφ hacc (ix1 m)).trans ?_
  refine (h.fold_filter_drop_single _ _ v (ix1 m)).trans ?_
  refine congrArg (fun g => (Finset.univ : Finset (Fin 1024)).fold min (Ideal.ofBits .f32 acc) g) ?_
  funext k
  exact congrArg v (funext fun a => Fin.ext (by match a with | ⟨0, _⟩ => rfl | ⟨1, _⟩ => rfl))

/-- The largest entry of a column vector, from the starting word. -/
theorem max_col_apply (v : FVec Ideal Col .f32) (acc : BitVec 32) (h : Col.Reduces [0] One) (hφ : FKind.Formats .f32)
    (hacc : acc = FKind.maximumf.neutral .f32 hφ) (u : Fin 1) :
    multiReduction .maximumf [0] One v acc h hφ hacc (ix1 u)
      = (Finset.univ : Finset (Fin 1024)).fold max (Ideal.ofBits .f32 acc) (fun k => v (ix2 k u)) := by
  refine (Ideal.multiReduction_maximumf_single v acc h hφ hacc (ix1 u)).trans ?_
  refine congrArg (fun g => (Finset.univ : Finset (Fin 1024)).fold max (Ideal.ofBits .f32 acc) g) ?_
  funext k
  exact congrArg v (funext fun a => Fin.ext (by match a with | ⟨0, _⟩ => rfl | ⟨1, _⟩ => rfl))

/-- The largest entry of a row vector, from the starting word. -/
theorem max_row_apply (v : FVec Ideal Row .f32) (acc : BitVec 32) (h : Row.Reduces [1] One) (hφ : FKind.Formats .f32)
    (hacc : acc = FKind.maximumf.neutral .f32 hφ) (u : Fin 1) :
    multiReduction .maximumf [1] One v acc h hφ hacc (ix1 u)
      = (Finset.univ : Finset (Fin 1024)).fold max (Ideal.ofBits .f32 acc) (fun k => v (ix2 u k)) := by
  refine (Ideal.multiReduction_maximumf_single v acc h hφ hacc (ix1 u)).trans ?_
  refine congrArg (fun g => (Finset.univ : Finset (Fin 1024)).fold max (Ideal.ofBits .f32 acc) g) ?_
  funext k
  exact congrArg v (funext fun a => Fin.ext (by match a with | ⟨0, _⟩ => rfl | ⟨1, _⟩ => rfl))

end Reductions

end Cert.Hausdorff

end
-- ==== Proof.Payload.lean ====
/-
  The value one grid point adds to its slot: read over the extended reals, the body's arithmetic on its two input
  blocks (each block one point set, rows the points) is the symmetric Hausdorff distance of the two sets.

  The row sums of squares are |x|² and |y|²; the product of the first block with the transposed second is the matrix
  of inner products (rounding the factors to a narrower format first changes nothing over the extended reals); so the
  matrix the body roots is the matrix of clamped squared distances, its row minima maximised give the directed distance
  one way, its column minima maximised the other way.
-/
import proofs.«117508_j44796508897916_1_alg».proof.Proof.Gen.KernelIdeal.Skeleton
import proofs.«117508_j44796508897916_1_alg».proof.Proof.Spec
import proofs.«117508_j44796508897916_1_alg».proof.Proof.Layout
import Idealize.ShloMosaic.PureOps.Ideal.Laws
import Idealize.ShloMosaic.Lib.ValueIdx
import Idealize.ShloMosaic.Lib.ValueLayout

noncomputable section

namespace Cert.KernelIdeal.Payload

open Cert.KernelIdeal Cert.KernelIdeal.Gen Cert.Hausdorff Idealize.ShloMosaic Idealize.ShloMosaic.ValueIdx

/-! ## The product of the blocks: the matrix of inner products -/

theorem lhs_mm_0 (i : S1024x1024.Idx) (q : dot_S1024x1024_S1024x1024_S1024x1024_1_1_0_0_n_n.contr.Idx) :
    (dot_S1024x1024_S1024x1024_S1024x1024_1_1_0_0_n_n.lhsIdx i q 0).val = (i 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
theorem lhs_mm_1 (i : S1024x1024.Idx) (q : dot_S1024x1024_S1024x1024_S1024x1024_1_1_0_0_n_n.contr.Idx) :
    (dot_S1024x1024_S1024x1024_S1024x1024_1_1_0_0_n_n.lhsIdx i q 1).val = (q ⟨0, by decide⟩).val :=
  dot_S1024x1024_S1024x1024_S1024x1024_1_1_0_0_n_n.lhsIdx_val_of_single rfl i q
theorem rhs_mm_0 (i : S1024x1024.Idx) (q : dot_S1024x1024_S1024x1024_S1024x1024_1_1_0_0_n_n.contr.Idx) :
    (dot_S1024x1024_S1024x1024_S1024x1024_1_1_0_0_n_n.rhsIdx i q 0).val = (i 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
theorem rhs_mm_1 (i : S1024x1024.Idx) (q : dot_S1024x1024_S1024x1024_S1024x1024_1_1_0_0_n_n.contr.Idx) :
    (dot_S1024x1024_S1024x1024_S1024x1024_1_1_0_0_n_n.rhsIdx i q 1).val = (q ⟨0, by decide⟩).val :=
  dot_S1024x1024_S1024x1024_S1024x1024_1_1_0_0_n_n.rhsIdx_val_of_single rfl i q

/-- Entry `(n, m)` of the product into a zero accumulator is the inner product of row `n` of the first factor with row
    `m` of the second. -/
theorem matmul_at {φ₁ φ₂ : FTy} (A : FVec Ideal S1024x1024 φ₁) (B : FVec Ideal S1024x1024 φ₂) (n m : Fin 1024) :
    matmul dot_S1024x1024_S1024x1024_S1024x1024_1_1_0_0_n_n none A B (constant S1024x1024 .f32 0x00000000#32) (ix2 n m)
      = ∑ k : Fin 1024, A (ix2 n k) * B (ix2 m k) := by
  simp only [matmul]
  rw [Ideal.matmul_constant_zero_apply, ← Equiv.sum_comp (ValueIdx.contrEquiv1 dot_S1024x1024_S1024x1024_S1024x1024_1_1_0_0_n_n 1024 rfl rfl).symm]
  refine Finset.sum_congr rfl fun k _ => ?_
  have hk := ValueIdx.contrEquiv1_symm_val dot_S1024x1024_S1024x1024_S1024x1024_1_1_0_0_n_n 1024 rfl rfl k
  have el : dot_S1024x1024_S1024x1024_S1024x1024_1_1_0_0_n_n.lhsIdx (ix2 n m) ((ValueIdx.contrEquiv1 dot_S1024x1024_S1024x1024_S1024x1024_1_1_0_0_n_n 1024 rfl rfl).symm k) = ix2 n k := funext fun a => Fin.ext (by
    match a with
    | ⟨0, _⟩ => exact lhs_mm_0 _ _
    | ⟨1, _⟩ => exact (lhs_mm_1 _ _).trans hk)
  have er : dot_S1024x1024_S1024x1024_S1024x1024_1_1_0_0_n_n.rhsIdx (ix2 n m) ((ValueIdx.contrEquiv1 dot_S1024x1024_S1024x1024_S1024x1024_1_1_0_0_n_n 1024 rfl rfl).symm k) = ix2 m k := funext fun a => Fin.ext (by
    match a with
    | ⟨0, _⟩ => exact rhs_mm_0 _ _
    | ⟨1, _⟩ => exact (rhs_mm_1 _ _).trans hk)
  rw [el, er]

/-! ## The matrix of distances -/

/-- Entry `(n, m)` of the rooted matrix is the distance of row `n` of `A` from row `m` of `B`. -/
theorem dist_at (A B : FVec Ideal S1024x1024 .f32)
    (hr : S1024x1024.Reduces [1] S1024) (hc : S1024.ShapeCasts S1024x1) (ht : S1024x1.Transposes [1, 0] S1x1024)
    (hb : FTy.bits .bf16 < FTy.bits .f32) (hbc : S1024x1.Broadcasts S1024x1024) (hbr : S1x1024.Broadcasts S1024x1024)
    (hφ : FKind.Formats .f32) (hacc : (0x00000000#32 : BitVec 32) = FKind.add.neutral .f32 hφ) (n m : Fin 1024) :
    sqrt (maximumf (subf (addf (broadcastTo S1024x1024 (shapeCast S1024x1 (multiReduction .add [1] S1024 (mulf A A) 0x00000000#32 hr hφ hacc) hc) hbc)
                               (broadcastTo S1024x1024 (transpose S1x1024 [1, 0] (shapeCast S1024x1 (multiReduction .add [1] S1024 (mulf B B) 0x00000000#32 hr hφ hacc) hc) ht) hbr))
                         (mulf (broadcast S1024x1024 (Scalar.ofBits .f32 0x40000000#32))
                               (matmul dot_S1024x1024_S1024x1024_S1024x1024_1_1_0_0_n_n none (truncf .bf16 A hb) (truncf .bf16 B hb) (constant S1024x1024 .f32 0x00000000#32))))
                   (broadcast S1024x1024 (Scalar.ofBits .f32 0x00000000#32))) (ix2 n m)
      = dist (fun n d => A (ix2 n d)) (fun m d => B (ix2 m d)) n m := by
  show Ideal.sqrt (max ((broadcastTo S1024x1024 (shapeCast S1024x1 (multiReduction .add [1] S1024 (mulf A A) 0x00000000#32 hr hφ hacc) hc) hbc (ix2 n m)
          + broadcastTo S1024x1024 (transpose S1x1024 [1, 0] (shapeCast S1024x1 (multiReduction .add [1] S1024 (mulf B B) 0x00000000#32 hr hφ hacc) hc) ht) hbr (ix2 n m))
        - Ideal.ofBits .f32 0x40000000#32 * matmul dot_S1024x1024_S1024x1024_S1024x1024_1_1_0_0_n_n none (truncf .bf16 A hb) (truncf .bf16 B hb) (constant S1024x1024 .f32 0x00000000#32) (ix2 n m))
      (Ideal.ofBits .f32 0x00000000#32)) = _
  rw [broadcastTo_col_apply, shapeCast_col_apply, add_row_apply, broadcastTo_1b_ab_apply, transpose_ix2_apply,
    shapeCast_col_apply, add_row_apply, matmul_at]
  rfl

/-! ## The value of a grid point -/

/-- A block as a point set: its one leading unit axis dropped. -/
def pts (x : Vec Ideal S1x1024x1024 .f32) : Pts := fun n d => x (ix3 (0 : Fin 1) n d)

/-- The value the body computes from its two blocks is their symmetric Hausdorff distance. -/
theorem pay3_eq (x0 x1 : Vec Ideal S1x1024x1024 .f32) : k0_pay3 (F := Ideal) x0 x1 = hd (pts x0) (pts x1) := by
  have key : ∀ (v : FVec Ideal S1x1 .f32) (h : ∀ a, (![0, 0] : Fin 2 → Nat) a < S1x1.size a),
      extractAt ![0, 0] v h = v (ix2 (0 : Fin 1) (0 : Fin 1)) := fun v h =>
    congrArg v (funext fun a => Fin.ext (by match a with | ⟨0, _⟩ => rfl | ⟨1, _⟩ => rfl))
  have e0 : (fun n d => shapeCast S1024x1024 x0 shapeCasts_S1x1024x1024_S1024x1024 (ix2 n d)) = pts x0 :=
    funext fun n => funext fun d => shapeCast_1ab_ab_apply x0 _ n d
  have e1 : (fun n d => shapeCast S1024x1024 x1 shapeCasts_S1x1024x1024_S1024x1024 (ix2 n d)) = pts x1 :=
    funext fun n => funext fun d => shapeCast_1ab_ab_apply x1 _ n d
  unfold k0_pay3
  dsimp only
  rw [key, maximumf_apply, shapeCast_a_1a_apply, shapeCast_a_1a_apply]
  refine (congrArg₂ max (max_col_apply _ _ _ _ _ 0) (max_row_apply _ _ _ _ _ 0)).trans ?_
  unfold hd
  show max (sup1024 _) (sup1024 _) = max (sup1024 _) (sup1024 _)
  refine congrArg₂ max (congrArg sup1024 (funext fun n => ?_)) (congrArg sup1024 (funext fun m => ?_))
  · refine (shapeCast_col_apply _ _ n 0).trans ?_
    refine (min_row_apply _ _ _ _ _ n).trans ?_
    show inf1024 _ = inf1024 _
    refine congrArg inf1024 (funext fun m => ?_)
    refine (dist_at _ _ _ _ _ _ _ _ _ _ n m).trans ?_
    rw [e0, e1]
  · refine (shapeCast_a_1a_apply _ _ 0 m).trans ?_
    refine (min_col_apply _ _ _ _ _ m).trans ?_
    show inf1024 _ = inf1024 _
    refine congrArg inf1024 (funext fun n => ?_)
    refine (dist_at _ _ _ _ _ _ _ _ _ _ n m).trans ?_
    rw [e0, e1]

end Cert.KernelIdeal.Payload

end
-- ==== Proof.Slots.lean ====
/-
  The accumulation into the output block, slot by slot: the block's slot `j` receives the grid point's value when `j` is
  the point's own number and zero otherwise, on top of what the block held.
-/
import proofs.«117508_j44796508897916_1_alg».proof.Proof.Gen.KernelIdeal.Skeleton
import proofs.«117508_j44796508897916_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Slots

open Cert.KernelIdeal Cert.KernelIdeal.Gen Cert.Hausdorff Idealize.ShloMosaic Idealize.ShloMosaic.ValueIdx

/-- The block the first grid point stores first is zero in every slot. -/
theorem pay2_apply (j : S24.Idx) : k0_pay2 (F := Ideal) j = 0 := by
  unfold k0_pay2
  show Ideal.ofBits .f32 0x00000000#32 = 0
  exact Ideal.ofBits_zero_f32

/-- The mask of grid point `i` is set at slot `j` exactly when `j` is the point's number. -/
theorem pay4_apply (i : grid0.Coords) (hi : (i 0).val < 24) (j : S24.Idx) :
    k0_pay4 i j = 1 ↔ (j 0).val = (i 0).val := by
  obtain ⟨k, rfl⟩ : ∃ k : Fin 24, j = ix1 k := ⟨j 0, eq_ix1 j⟩
  have hk : k.val < 24 := k.isLt
  unfold k0_pay4
  dsimp only
  show IntOp.cmpi .eq (shapeCast S24 (iota .tc S1x24 32 [1] iota_S1x24_d1_w32) shapeCasts_S1x24_S24 (ix1 k)) (BitVec.ofNat 32 (i 0).val) = 1 ↔ k.val = (i 0).val
  rw [shapeCast_1a_a_apply, iota_single_apply]
  show BitVec.ofBool (BitVec.ofNat 32 k.val == BitVec.ofNat 32 (i 0).val) = 1 ↔ _
  constructor
  · intro h
    have h' : (BitVec.ofNat 32 k.val == BitVec.ofNat 32 (i 0).val) = true := by
      cases hb : (BitVec.ofNat 32 k.val == BitVec.ofNat 32 (i 0).val)
      · rw [hb] at h; exact absurd h (by decide)
      · rfl
    have h'' := congrArg BitVec.toNat (beq_iff_eq.mp h')
    simp only [BitVec.toNat_ofNat] at h''
    omega
  · intro h
    rw [h]
    simp

/-- One store of the accumulation: slot `j` of the new block is slot `j` of the old one plus the value where the mask is
    set, plus zero elsewhere. -/
theorem pay1_apply (v : Ideal .f32) (msk : IVec S24 1) (xo : Vec Ideal S24 .f32) (j : S24.Idx) :
    k0_pay1 (F := Ideal) v msk xo j = xo j + (if msk j = 1 then v else 0) := by
  unfold k0_pay1
  rw [shapeCast_self]
  show xo j + Scalar.select (msk j) v (Ideal.ofBits .f32 0x00000000#32) = _
  rw [Ideal.ofBits_zero_f32]
  rfl

/-- So one grid point's store is the accumulator's step at the point's number. -/
theorem step_apply (i : grid0.Coords) (hi : (i 0).val < 24) (v : Ideal .f32) (xo : Vec Ideal S24 .f32) (acc : ℕ → EReal)
    (hxo : ∀ j : S24.Idx, xo j = acc (j 0).val) (j : S24.Idx) :
    k0_pay1 (F := Ideal) v (k0_pay4 i) xo j = bump acc (i 0).val v (j 0).val := by
  rw [pay1_apply, hxo]
  unfold bump
  by_cases h : (j 0).val = (i 0).val
  · rw [if_pos ((pay4_apply i hi j).mpr h), if_pos h]
  · rw [if_neg (fun h' => h ((pay4_apply i hi j).mp h')), if_neg h]

end Cert.KernelIdeal.Slots

end
-- ==== Proof.Invariant.lean ====
/-
  What the output's staging block holds after each grid point, over the extended reals: after point `n` its slot `j` holds
  the symmetric Hausdorff distance of the `j`-th pair of blocks for every `j ≤ n`, and zero for the later slots.

  By induction on the point. Point 0 zeroes the block and adds its own value at slot 0; point `n + 1` adds its own value at
  slot `n + 1` and zero elsewhere; and adding zero changes no extended real.
-/
import proofs.«117508_j44796508897916_1_alg».proof.Proof.Gen.KernelIdeal.Frame
import proofs.«117508_j44796508897916_1_alg».proof.Proof.Pieces
import proofs.«117508_j44796508897916_1_alg».proof.Proof.Payload
import proofs.«117508_j44796508897916_1_alg».proof.Proof.Slots

noncomputable section

namespace Cert.KernelIdeal.Value

open Cert.KernelIdeal Cert.KernelIdeal.Gen Cert.Hausdorff Cert.KernelIdeal.Payload Cert.KernelIdeal.Slots
open Idealize.ShloMosaic Idealize.ShloMosaic.TcCoe Idealize.SL.Sem Idealize.ShloMosaic.ValueIdx

variable (m : (ℓ : Loc nD τ sig) → Buf (Elt Ideal) ℓ) (ρ : Dev nD → PrngReg)

/-- The two input blocks of grid point `t`, at their literal shape. -/
abbrev xblk (c : Dev nD) (t : Fin cfg0.N) : Vec Ideal S1x1024x1024 .f32 := iblk m c 0 t
abbrev yblk (c : Dev nD) (t : Fin cfg0.N) : Vec Ideal S1x1024x1024 .f32 := iblk m c 1 t

/-- The value of grid point `k`: the symmetric Hausdorff distance of its two blocks (zero past the grid). -/
def H (c : Dev nD) (k : ℕ) : EReal :=
  if h : k < cfg0.N then hd (pts (xblk m c ⟨k, h⟩)) (pts (yblk m c ⟨k, h⟩)) else 0

theorem H_eq (c : Dev nD) (t : Fin cfg0.N) : hd (pts (xblk m c t)) (pts (yblk m c t)) = H m c t.val := by
  unfold H
  rw [dif_pos t.isLt]

/-- The grid is one axis: a point's coordinate is its number. -/
theorem coords_val : ∀ t : Fin cfg0.N, (grid0.coords t 0).val = t.val :=
  (by decide +kernel : ∀ t : Fin grid0.N, (grid0.coords t 0).val = t.val)

theorem coords_lt (t : Fin cfg0.N) : (grid0.coords t 0).val < 24 := by
  rw [coords_val]; exact lt_of_lt_of_eq t.isLt (show cfg0.N = 24 from N_0)

/-- After grid point `n` the output's staging block holds the values of points `0 … n` in their slots and zero after. -/
theorem outsAt_eq (c : Dev nD) : ∀ (n : ℕ) (hn : n < cfg0.N) (j : S24.Idx),
    outsAt0 m c n hn j = accum (H m c) n (j 0).val
  | 0, hn, j => by
    have e := (outsAt0_A m c ⟨0, hn⟩ rfl).trans
      (Pieces.out_A c (grid0.coords ⟨0, hn⟩) _ _ _ _ _ _ _ (xblk m c ⟨0, hn⟩) (yblk m c ⟨0, hn⟩))
    refine (congrFun e j).trans ?_
    refine (step_apply (grid0.coords ⟨0, hn⟩) (coords_lt ⟨0, hn⟩) _ _ (fun _ => 0) (fun j => pay2_apply j) j).trans ?_
    rw [coords_val ⟨0, hn⟩, pay3_eq, H_eq m c ⟨0, hn⟩]
    exact congrFun (bump_zero (H m c)) _
  | n + 1, hn, j => by
    have hN : cfg0.N = 24 := N_0
    have hB : ¬(⟨n + 1, hn⟩ : Fin cfg0.N).val % 24 = 0 := by dsimp only; omega
    have e := (outsAt0_B m c ⟨n + 1, hn⟩ hB).trans
      (Pieces.out_B c (grid0.coords ⟨n + 1, hn⟩) _ _ _ _ _ _ _ (xblk m c ⟨n + 1, hn⟩) (yblk m c ⟨n + 1, hn⟩) _)
    refine (congrFun e j).trans ?_
    refine (step_apply (grid0.coords ⟨n + 1, hn⟩) (coords_lt ⟨n + 1, hn⟩) _ _ (accum (H m c) n)
      (fun j => outsAt_eq c n (Nat.lt_of_succ_lt hn) j) j).trans ?_
    rw [coords_val ⟨n + 1, hn⟩, pay3_eq, H_eq m c ⟨n + 1, hn⟩]
    exact congrFun (bump_accum (H m c) n) _

end Cert.KernelIdeal.Value

end
-- ==== Proof.KernelRun.lean ====
/-
  The kernel's run, read to its result over the extended reals.

  The output block is written back to its array once, after the last grid point, and the block is the whole array: so the
  array ends holding, in slot `j`, the symmetric Hausdorff distance of the `j`-th pair of blocks. The lines after the
  kernel sum the 24 slots from zero and divide by 24.
-/
import proofs.«117508_j44796508897916_1_alg».proof.Proof.Invariant
import Idealize.ShloMosaic.Lib.Pipeline.Value
import Idealize.ShloMosaic.Lib.StableHlo.Run
import Idealize.ShloMosaic.Lib.Tactic

noncomputable section

namespace Cert.KernelIdeal.Value

open Cert.KernelIdeal Cert.KernelIdeal.Gen Cert.Hausdorff Cert.KernelIdeal.Payload Cert.KernelIdeal.Slots
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The 24 distances, one per slot: what the kernel's result array ends holding. -/
abbrev result (c : Dev nD) : Buf (Elt Ideal) ((c : Thread nD τ).loc main_v2) := fun j => H m c (j 0).val

/-- The last grid point. -/
abbrev tlast : Fin cfg0.N := ⟨23, by rw [show cfg0.N = 24 from N_0]; decide⟩

/-- After the last point the staging block holds every slot's distance. -/
theorem outs_last (c : Dev nD) : outsAt0 m c (tlast).val (tlast).isLt = result m c := by
  funext j
  rw [outsAt_eq]
  unfold accum
  have hj : (j 0).val < 24 := (j 0).isLt
  rw [if_pos (by show (j 0).val ≤ 23; omega)]

/-- The one write-back, after point 23, writes it: the block at zero offsets is the whole 24-slot array. -/
theorem flushed_eq (c : Dev nD) (t : Fin cfg0.N) (hf : (cfg0.win 2).flush t = true) :
    (dats m 0 c).flushed 2 t = ((cfg0.win 2).blk t).view.read (Elt Ideal) (result m c) := by
  have hN : cfg0.N = 24 := N_0
  have h23 : t.val = 23 := by have := (flush0_2 t).mp hf; have := t.isLt; omega
  obtain rfl : t = tlast := Fin.ext h23
  show (cfg0.win 2).cut (grid0.coords tlast) ((dats m 0 c).after 2 tlast) = _
  rw [after0_2, outs_last]
  have hz' : (fun a => win0_2.index tlast a * main_v2.ty.shape.size a) = fun _ => 0 := funext fun a => by fin_cases a <;> decide
  exact (Memref.read_access_unit_zero (Elt Ideal) main_v2 hz' (fun a => by rw [congrFun hz' a]; simp) (result m c)).symm

/-- So the result array ends holding the 24 distances. -/
theorem final_o (c : Dev nD) : (dats m 0 c).arrAt 2 cfg0.N = result m c :=
  (dats m 0 c).arrAt_eq_of_cover 2 (result m c) (flushed_eq m c) fun i =>
    ⟨tlast, (flush0_2 tlast).mpr rfl, by
      show i ∈ ((View.whole main_v2).slice (win0_2.rect tlast)).set
      rw [View.set_slice_whole, Rect.mem_set_unit]
      intro a
      have h0 : (i 0 : Nat) < 24 := (i 0).isLt
      match a with
      | ⟨0, _⟩ => show win0_2.index tlast 0 * win0_2.size 0 ≤ (i 0 : Nat) ∧ (i 0 : Nat) < win0_2.index tlast 0 * win0_2.size 0 + win0_2.xsize (grid0.coords tlast) 0
                  rw [show win0_2.index tlast 0 * win0_2.size 0 = 0 from by decide +kernel, show win0_2.xsize (grid0.coords tlast) 0 = 24 from by decide +kernel]; omega⟩

/-- The lines after the kernel, applied to the result array: its sum from zero, divided by 24. -/
theorem tail_v4 (c : Dev nD) :
    Pipeline.afterTail₀ cfgs (dats m) 0 (V0 m) [hostOps1] c main_v4
      = Host.divf (Host.reduceAdd (result m c) (constant (F := Ideal) S_ .f32 0x00000000#32) reducesTo_S24_S_d0 h_S_)
          (constant (F := Ideal) S_ .f32 0x41C00000#32) := by
  unfold Pipeline.afterTail₀
  show StableHlo.after hostOps1 _ (Proc.devRef .tc main_v4) = _
  after_results
  refine congrArg (fun x => Host.divf (Host.reduceAdd x (constant (F := Ideal) S_ .f32 0x00000000#32) reducesTo_S24_S_d0 h_S_)
    (constant (F := Ideal) S_ .f32 0x41C00000#32)) ?_
  exact (Pipeline.withArrays_arr spec0 launch0.win.arr_inj c _ _ 2).trans (final_o m c)

/-- THE KERNEL'S RUN: every weakly fair execution terminates with the result at the mean of the 24 distances and the two
    arguments unchanged. -/
theorem run : θ_run defs (onTc (τ := τ) (main (F := Ideal))) ⟨m, fun _ => 0, ρ⟩ fun r => ∀ c : Dev nD,
      r.2.mem ((c : Thread nD τ).loc main_v4)
        = Host.divf (Host.reduceAdd (result m c) (constant (F := Ideal) S_ .f32 0x00000000#32) reducesTo_S24_S_d0 h_S_)
            (constant (F := Ideal) S_ .f32 0x41C00000#32)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v4 (Pipeline.mem_restRefs_of main_v4 (by decide) (by decide))).trans (tail_v4 m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.Value

end
-- ==== Proof.Members.lean ====
/-
  The 24 pairs of point sets. An argument array is eight stacks of three 1024 × 1024 matrices; pair number `3 b + k` takes
  matrix `k` of stack `b` from each argument. Summing a quantity over the 24 pair numbers is summing it over the stacks and
  their members.
-/
import proofs.«117508_j44796508897916_1_alg».proof.Proof.Spec
import Idealize.ShloMosaic.Lib.ValueIdx

noncomputable section

namespace Cert.Hausdorff

open Idealize.ShloMosaic Idealize.ShloMosaic.ValueIdx

/-- Matrix `k` of stack `b` of an argument array, as a point set. -/
def member (x : (⟨4, ![8, 3, 1024, 1024]⟩ : Shape).Idx → EReal) (b : Fin 8) (k : Fin 3) : Pts := fun n d => x (ix4 b k n d)

/-- Pair numbers and (stack, member) pairs: `(b, k) ↦ 3 b + k`. -/
def pairEquiv : (⟨2, ![8, 3]⟩ : Shape).Idx ≃ (⟨1, ![24]⟩ : Shape).Idx where
  toFun j := ix1 (⟨3 * (j 0).val + (j 1).val, by have := idx2_lt0 j; have := idx2_lt1 j; omega⟩ : Fin 24)
  invFun i := ix2 (⟨(i 0).val / 3, by have : (i 0).val < 24 := (i 0).isLt; omega⟩ : Fin 8)
    (⟨(i 0).val % 3, Nat.mod_lt _ (by decide)⟩ : Fin 3)
  left_inv j := by
    have h0 := idx2_lt0 j
    have h1 := idx2_lt1 j
    funext a
    apply Fin.ext
    match a with
    | ⟨0, _⟩ => show (3 * (j 0).val + (j 1).val) / 3 = (j 0).val; omega
    | ⟨1, _⟩ => show (3 * (j 0).val + (j 1).val) % 3 = (j 1).val; omega
  right_inv i := by
    funext a
    apply Fin.ext
    match a with
    | ⟨0, _⟩ => show 3 * ((i 0).val / 3) + (i 0).val % 3 = (i 0).val; omega

/-- A sum over the 24 pair numbers is the sum over stacks and members. -/
theorem sum_pairs (g : ℕ → EReal) :
    ∑ i : (⟨1, ![24]⟩ : Shape).Idx, g (i 0).val = ∑ j : (⟨2, ![8, 3]⟩ : Shape).Idx, g (3 * (j 0).val + (j 1).val) :=
  (Fintype.sum_equiv pairEquiv (fun j => g (3 * (j 0).val + (j 1).val)) (fun i => g (i 0).val) (fun j => rfl)).symm

end Cert.Hausdorff

end
-- ==== Proof.Blocks.lean ====
/-
  The blocks the kernel's windows hand to the body, as parts of the argument arrays.

  The lines before the kernel view each argument, eight by three stacks of 1024 × 1024 matrices, as 24 such matrices in
  row-major order, and grid point `t` is handed matrix `t` of each: matrix `t mod 3` of stack `t div 3`.
-/
import proofs.«117508_j44796508897916_1_alg».proof.Proof.Invariant
import proofs.«117508_j44796508897916_1_alg».proof.Proof.Members
import Idealize.ShloMosaic.Lib.Pipeline.Value
import Idealize.ShloMosaic.Lib.StableHlo.Run
import Idealize.ShloMosaic.Lib.Tactic

noncomputable section

namespace Cert.KernelIdeal.Value

open Cert.KernelIdeal Cert.KernelIdeal.Gen Cert.Hausdorff Cert.KernelIdeal.Payload
open Idealize.ShloMosaic Idealize.ShloMosaic.TcCoe Idealize.SL.Sem Idealize.ShloMosaic.ValueIdx

variable (m : (ℓ : Loc nD τ sig) → Buf (Elt Ideal) ℓ)

/-- Matrix `n` of the 24 is matrix `n mod 3` of stack `n div 3`. -/
abbrev stackOf (n : ℕ) (h : n < 24) : Fin 8 := ⟨n / 3, by omega⟩
abbrev memberOf (n : ℕ) : Fin 3 := ⟨n % 3, Nat.mod_lt _ (by decide)⟩

/-- The 24-matrix view of an argument reads, at `(t, n, d)`, the argument at `(t div 3, t mod 3, n, d)`. -/
theorem reshape_at (x : Vec Ideal S8x3x1024x1024 .f32) (t : Fin 24) (n d : Fin 1024) :
    shapeCast S24x1024x1024 x shapeCasts_S8x3x1024x1024_S24x1024x1024 (ix3 t n d)
      = x (ix4 (stackOf t.val t.isLt) (memberOf t.val) n d) :=
  shapeCast_apply x _ _ _ (by
    rw [Shape.rowMajor_val_four, Shape.rowMajor_val_three]
    show ((t.val / 3 * 3 + t.val % 3) * 1024 + n.val) * 1024 + d.val = (t.val * 1024 + n.val) * 1024 + d.val
    have := Nat.div_add_mod t.val 3
    rw [show t.val / 3 * 3 + t.val % 3 = t.val by omega])

/-- The kernel finds the first argument's 24-matrix view in its first window's array, -/
theorem V_v0 (c : Dev nD) :
    (V m c main_v0 : Vec Ideal S24x1024x1024 .f32)
      = shapeCast S24x1024x1024 (m ((c : Thread nD τ).loc main_arg0)) shapeCasts_S8x3x1024x1024_S24x1024x1024 := by
  show StableHlo.after hostOps0 (fun b => m (c, b)) (Proc.devRef .tc main_v0) = _
  after_results
  rfl

/-- and the second argument's in its second window's. -/
theorem V_v1 (c : Dev nD) :
    (V m c main_v1 : Vec Ideal S24x1024x1024 .f32)
      = shapeCast S24x1024x1024 (m ((c : Thread nD τ).loc main_arg1)) shapeCasts_S8x3x1024x1024_S24x1024x1024 := by
  show StableHlo.after hostOps0 (fun b => m (c, b)) (Proc.devRef .tc main_v1) = _
  after_results
  rfl

/-- Both windows step through the 24 matrices one per grid point. -/
theorem index0 : ∀ t : Fin cfg0.N, win0_0.index t 0 = t.val ∧ win0_0.index t 1 = 0 ∧ win0_0.index t 2 = 0 :=
  (by decide +kernel : ∀ t : Fin grid0.N, win0_0.index t 0 = t.val ∧ win0_0.index t 1 = 0 ∧ win0_0.index t 2 = 0)
theorem index1 : ∀ t : Fin cfg0.N, win0_1.index t 0 = t.val ∧ win0_1.index t 1 = 0 ∧ win0_1.index t 2 = 0 :=
  (by decide +kernel : ∀ t : Fin grid0.N, win0_1.index t 0 = t.val ∧ win0_1.index t 1 = 0 ∧ win0_1.index t 2 = 0)

/-- The first block of grid point `t`, as a point set, is member `(t div 3, t mod 3)` of the first argument. -/
theorem pts_xblk (c : Dev nD) (t : Fin cfg0.N) :
    pts (xblk m c t) = member (m ((c : Thread nD τ).loc main_arg0)) (stackOf t.val (lt_of_lt_of_eq t.isLt N_0)) (memberOf t.val) := by
  have hN : t.val < 24 := lt_of_lt_of_eq t.isLt N_0
  funext n d
  unfold pts member xblk iblk
  rw [View.read_apply]
  show (V m c main_v0 : Vec Ideal S24x1024x1024 .f32) (((cfg0.win 0).blk t).view.emb (ix3 (0 : Fin 1) n d)) = _
  have he : (((cfg0.win 0).blk t).view.emb (ix3 (0 : Fin 1) n d) : S24x1024x1024.Idx) = ix3 (⟨t.val, hN⟩ : Fin 24) n d :=
    funext fun a => Fin.ext (by
      match a with
      | ⟨0, _⟩ => show win0_0.index t 0 * 1 + 1 * 0 = t.val; rw [(index0 t).1]; omega
      | ⟨1, _⟩ => show win0_0.index t 1 * 1024 + 1 * n.val = n.val; rw [(index0 t).2.1]; omega
      | ⟨2, _⟩ => show win0_0.index t 2 * 1024 + 1 * d.val = d.val; rw [(index0 t).2.2]; omega)
  refine (congrArg (V m c main_v0 : Vec Ideal S24x1024x1024 .f32) he).trans ?_
  exact (congrFun (V_v0 m c) _).trans (reshape_at _ ⟨t.val, hN⟩ n d)

/-- The second block of grid point `t` is the same member of the second argument. -/
theorem pts_yblk (c : Dev nD) (t : Fin cfg0.N) :
    pts (yblk m c t) = member (m ((c : Thread nD τ).loc main_arg1)) (stackOf t.val (lt_of_lt_of_eq t.isLt N_0)) (memberOf t.val) := by
  have hN : t.val < 24 := lt_of_lt_of_eq t.isLt N_0
  funext n d
  unfold pts member yblk iblk
  rw [View.read_apply]
  show (V m c main_v1 : Vec Ideal S24x1024x1024 .f32) (((cfg0.win 1).blk t).view.emb (ix3 (0 : Fin 1) n d)) = _
  have he : (((cfg0.win 1).blk t).view.emb (ix3 (0 : Fin 1) n d) : S24x1024x1024.Idx) = ix3 (⟨t.val, hN⟩ : Fin 24) n d :=
    funext fun a => Fin.ext (by
      match a with
      | ⟨0, _⟩ => show win0_1.index t 0 * 1 + 1 * 0 = t.val; rw [(index1 t).1]; omega
      | ⟨1, _⟩ => show win0_1.index t 1 * 1024 + 1 * n.val = n.val; rw [(index1 t).2.1]; omega
      | ⟨2, _⟩ => show win0_1.index t 2 * 1024 + 1 * d.val = d.val; rw [(index1 t).2.2]; omega)
  refine (congrArg (V m c main_v1 : Vec Ideal S24x1024x1024 .f32) he).trans ?_
  exact (congrFun (V_v1 m c) _).trans (reshape_at _ ⟨t.val, hN⟩ n d)

/-- So the value of grid point `3 b + k` is the symmetric Hausdorff distance of member `(b, k)` of the two arguments. -/
theorem H_pair (c : Dev nD) (b : Fin 8) (k : Fin 3) :
    H m c (3 * b.val + k.val)
      = hd (member (m ((c : Thread nD τ).loc main_arg0)) b k) (member (m ((c : Thread nD τ).loc main_arg1)) b k) := by
  have hb := b.isLt
  have hk := k.isLt
  have hlt : 3 * b.val + k.val < cfg0.N := by rw [show cfg0.N = 24 from N_0]; omega
  unfold H
  rw [dif_pos hlt, pts_xblk, pts_yblk]
  have e1 : stackOf (3 * b.val + k.val) (by omega) = b := Fin.ext (by show (3 * b.val + k.val) / 3 = b.val; omega)
  have e2 : memberOf (3 * b.val + k.val) = k := Fin.ext (by show (3 * b.val + k.val) % 3 = k.val; omega)
  show hd (member _ (stackOf (3 * b.val + k.val) _) (memberOf (3 * b.val + k.val))) (member _ (stackOf (3 * b.val + k.val) _) (memberOf (3 * b.val + k.val))) = _
  rw [e1, e2]

end Cert.KernelIdeal.Value

end
-- ==== Proof.RefValue.lean ====
/-
  The reference's value, stage by stage, over the extended reals: at stack `b` and member `k` its matrix of rooted,
  clamped squared distances is the distance matrix of member `(b, k)` of the two arguments, its row minima maximised and
  its column minima maximised are the two directed distances, and their maximum is the symmetric Hausdorff distance.
-/
import proofs.«117508_j44796508897916_1_alg».proof.Proof.Gen.ReferenceIdeal.Read
import proofs.«117508_j44796508897916_1_alg».proof.Proof.Members
import Idealize.ShloMosaic.PureOps.Ideal.Laws
import Idealize.ShloMosaic.Lib.ValueIdx

noncomputable section

namespace Cert.ReferenceIdeal.RefValue

open Cert.ReferenceIdeal Cert.ReferenceIdeal.Gen Cert.ReferenceIdeal.Read Cert.Hausdorff
open Idealize.ShloMosaic Idealize.ShloMosaic.ValueIdx

variable (x0 x1 : (⟨S8x3x1024x1024, .f32⟩ : BufTy).Contents (Elt Ideal))

/-- The matrix the reference roots is, at `(b, k, n, m)`, the distance of point `n` of member `(b, k)` of the first argument
    from point `m` of the same member of the second. -/
theorem v15_at (b : Fin 8) (k : Fin 3) (n mm : Fin 1024) :
    val_main_v15 (F := Ideal) x0 x1 (ix4 b k n mm) = dist (member x0 b k) (member x1 b k) n mm := by
  have e1 : ∀ d : Fin 1024, idx_main_v1 (idx_main_v5 (idx_main_v7 (ix4 b k n mm))) d = ix4 b k n d := fun d =>
    funext fun a => Fin.ext (by match a with | ⟨0, _⟩ => rfl | ⟨1, _⟩ => rfl | ⟨2, _⟩ => rfl | ⟨3, _⟩ => rfl)
  have e3 : ∀ d : Fin 1024, idx_main_v3 (idx_main_v6 (idx_main_v8 (ix4 b k n mm))) d = ix4 b k mm d := fun d =>
    funext fun a => Fin.ext (by match a with | ⟨0, _⟩ => rfl | ⟨1, _⟩ => rfl | ⟨2, _⟩ => rfl | ⟨3, _⟩ => rfl)
  have el : ∀ d : Fin 1024, lidx_main_v4 (ix4 b k n mm) d = ix4 b k n d := fun d =>
    funext fun a => Fin.ext (by match a with | ⟨0, _⟩ => rfl | ⟨1, _⟩ => rfl | ⟨2, _⟩ => rfl | ⟨3, _⟩ => rfl)
  have er : ∀ d : Fin 1024, ridx_main_v4 (ix4 b k n mm) d = ix4 b k mm d := fun d =>
    funext fun a => Fin.ext (by match a with | ⟨0, _⟩ => rfl | ⟨1, _⟩ => rfl | ⟨2, _⟩ => rfl | ⟨3, _⟩ => rfl)
  rw [val_main_v15_apply, val_main_v14_apply, val_main_v12_apply, val_main_v9_apply, val_main_v11_apply,
    val_main_v7_apply, val_main_v5_apply, val_main_v1_apply, val_main_v8_apply, val_main_v6_apply, val_main_v3_apply,
    val_main_v10_apply, val_main_v4_apply, val_main_v13_apply]
  unfold Cert.Hausdorff.dist Cert.Hausdorff.sq Cert.Hausdorff.cross Cert.Hausdorff.member
  simp only [val_main_v0_apply, val_main_v2_apply, val_main_cst_apply, val_main_cst_0_apply, val_main_cst_1_apply,
    val_main_cst_2_apply, Ideal.hostUnary_sqrt_def, Ideal.maximumf_def, Ideal.subf_def, Ideal.addf_def, Ideal.mulf_def,
    Ideal.ofBits_def, Ideal.ofBits_zero_f32, zero_add, e1, e3, el, er]

/-- The smallest distance from point `n` of the first member to the second member. -/
theorem v16_at (b : Fin 8) (k : Fin 3) (n : Fin 1024) :
    val_main_v16 (F := Ideal) x0 x1 (ix3 b k n) = inf1024 fun mm => dist (member x0 b k) (member x1 b k) n mm := by
  unfold val_main_v16
  refine (Host.reduce_eq_fold_single FloatOps.minimumf _ _ reducesTo_S8x3x1024x1024_S8x3x1024_d3 (by decide) h_S_ (ix3 b k n)).trans ?_
  show inf1024 _ = inf1024 _
  refine congrArg inf1024 (funext fun mm => ?_)
  refine Eq.trans (congrArg (val_main_v15 (F := Ideal) x0 x1) ?_) (v15_at x0 x1 b k n mm)
  exact funext fun a => Fin.ext (by match a with | ⟨0, _⟩ => rfl | ⟨1, _⟩ => rfl | ⟨2, _⟩ => rfl | ⟨3, _⟩ => rfl)

/-- The smallest distance from point `m` of the second member to the first member. -/
theorem v18_at (b : Fin 8) (k : Fin 3) (mm : Fin 1024) :
    val_main_v18 (F := Ideal) x0 x1 (ix3 b k mm) = inf1024 fun n => dist (member x0 b k) (member x1 b k) n mm := by
  unfold val_main_v18
  refine (Host.reduce_eq_fold_single FloatOps.minimumf _ _ reducesTo_S8x3x1024x1024_S8x3x1024_d2 (by decide) h_S_ (ix3 b k mm)).trans ?_
  show inf1024 _ = inf1024 _
  refine congrArg inf1024 (funext fun n => ?_)
  refine Eq.trans (congrArg (val_main_v15 (F := Ideal) x0 x1) ?_) (v15_at x0 x1 b k n mm)
  exact funext fun a => Fin.ext (by match a with | ⟨0, _⟩ => rfl | ⟨1, _⟩ => rfl | ⟨2, _⟩ => rfl | ⟨3, _⟩ => rfl)

/-- The directed distance from the first member to the second, -/
theorem v17_at (b : Fin 8) (k : Fin 3) :
    val_main_v17 (F := Ideal) x0 x1 (ix2 b k) = sup1024 fun n => inf1024 fun mm => dist (member x0 b k) (member x1 b k) n mm := by
  have hR : S8x3x1024.Reduces [2] S8x3 := by decide
  have hl : ∀ n : Fin 1024, hR.lift (ix2 b k) n = ix3 b k n := fun n =>
    funext fun a => Fin.ext (by match a with | ⟨0, _⟩ => rfl | ⟨1, _⟩ => rfl | ⟨2, _⟩ => rfl)
  unfold val_main_v17
  refine (Host.reduce_eq_fold_single FloatOps.maximumf _ _ reducesTo_S8x3x1024_S8x3_d2 hR h_S_ (ix2 b k)).trans ?_
  show sup1024 _ = sup1024 _
  refine congrArg sup1024 (funext fun n => ?_)
  rw [Function.comp_apply, hl n]
  exact v16_at x0 x1 b k n

/-- and from the second to the first. -/
theorem v19_at (b : Fin 8) (k : Fin 3) :
    val_main_v19 (F := Ideal) x0 x1 (ix2 b k) = sup1024 fun mm => inf1024 fun n => dist (member x0 b k) (member x1 b k) n mm := by
  have hR : S8x3x1024.Reduces [2] S8x3 := by decide
  have hl : ∀ mm : Fin 1024, hR.lift (ix2 b k) mm = ix3 b k mm := fun mm =>
    funext fun a => Fin.ext (by match a with | ⟨0, _⟩ => rfl | ⟨1, _⟩ => rfl | ⟨2, _⟩ => rfl)
  unfold val_main_v19
  refine (Host.reduce_eq_fold_single FloatOps.maximumf _ _ reducesTo_S8x3x1024_S8x3_d2 hR h_S_ (ix2 b k)).trans ?_
  show sup1024 _ = sup1024 _
  refine congrArg sup1024 (funext fun mm => ?_)
  rw [Function.comp_apply, hl mm]
  exact v18_at x0 x1 b k mm

/-- The reference's value at stack `b`, member `k`: the symmetric Hausdorff distance of that member of the two arguments. -/
theorem v20_at (b : Fin 8) (k : Fin 3) :
    val_main_v20 (F := Ideal) x0 x1 (ix2 b k) = hd (member x0 b k) (member x1 b k) := by
  rw [val_main_v20_apply, v17_at, v19_at]
  rfl

end Cert.ReferenceIdeal.RefValue

end
-- ==== Proof.Bridge.lean ====
/-
  The two results are one extended real. The kernel's result is the sum, from zero, of its 24 slots divided by 24, and
  slot `3 b + k` holds the symmetric Hausdorff distance of member `(b, k)` of the two arguments; the reference's is the sum,
  from zero, over stacks `b` and members `k` of the same distances, divided by 24. A sum of extended reals does not depend
  on how its index set is laid out, so the two sums agree term by term along `(b, k) ↦ 3 b + k`.
-/
import proofs.«117508_j44796508897916_1_alg».proof.Proof.KernelRun
import proofs.«117508_j44796508897916_1_alg».proof.Proof.Blocks
import proofs.«117508_j44796508897916_1_alg».proof.Proof.RefValue

noncomputable section

namespace Cert.Proof.Bridge

open Cert.Hausdorff Idealize.ShloMosaic Idealize.ShloMosaic.TcCoe Idealize.SL.Sem Idealize.ShloMosaic.ValueIdx

/-- The host's sum of a 24-slot vector from an initial value: the initial value plus the sum of the slots. -/
theorem sum24_apply (y : Cert.KernelIdeal.S24.Idx → EReal) (init : Cert.KernelIdeal.S_.Idx → EReal) (i : Cert.KernelIdeal.S_.Idx) :
    Host.reduceAdd (F := Ideal) (φ := .f32) y init Cert.KernelIdeal.Gen.reducesTo_S24_S_d0 Cert.KernelIdeal.Gen.h_S_ i
      = init (Shape.Idx.first Cert.KernelIdeal.Gen.h_S_) + ∑ j : Cert.KernelIdeal.S24.Idx, y j := by
  simp only [Host.reduceAdd, Ideal.hostReduceAdd_def]
  exact Ideal.hostReduceAdd_total Cert.KernelIdeal.Gen.reducesTo_S24_S_d0 (fun b => b.elim0) y _ i

variable (m : (ℓ : Loc Cert.KernelIdeal.nD Cert.KernelIdeal.τ Cert.KernelIdeal.sig) → Buf (Elt Ideal) ℓ)

/-- The kernel's 24 slots, summed, are the reference's distances summed over stacks and members. -/
theorem sums_eq (c : Dev Cert.KernelIdeal.nD) :
    ∑ i : Cert.KernelIdeal.S24.Idx, Cert.KernelIdeal.Value.H m c (i 0).val
      = ∑ j : Cert.ReferenceIdeal.S8x3.Idx,
          Cert.ReferenceIdeal.Read.val_main_v20 (F := Ideal)
            (m ((c : Thread Cert.KernelIdeal.nD Cert.KernelIdeal.τ).loc Cert.KernelIdeal.main_arg0))
            (m ((c : Thread Cert.KernelIdeal.nD Cert.KernelIdeal.τ).loc Cert.KernelIdeal.main_arg1)) j := by
  refine (sum_pairs (Cert.KernelIdeal.Value.H m c)).trans ?_
  refine Finset.sum_congr rfl fun j _ => ?_
  obtain ⟨b, k, rfl⟩ : ∃ (b : Fin 8) (k : Fin 3), j = ix2 b k := ⟨j 0, j 1, eq_ix2 j⟩
  show Cert.KernelIdeal.Value.H m c (3 * b.val + k.val) = _
  rw [Cert.KernelIdeal.Value.H_pair, Cert.ReferenceIdeal.RefValue.v20_at]

/-- The kernel's result is the reference's result of the same arguments. -/
theorem result_eq (c : Dev Cert.KernelIdeal.nD) :
    Host.divf (Host.reduceAdd (Cert.KernelIdeal.Value.result m c) (constant (F := Ideal) Cert.KernelIdeal.S_ .f32 0x00000000#32)
        Cert.KernelIdeal.Gen.reducesTo_S24_S_d0 Cert.KernelIdeal.Gen.h_S_) (constant (F := Ideal) Cert.KernelIdeal.S_ .f32 0x41C00000#32)
      = Cert.ReferenceIdeal.Read.val_main_v22 (F := Ideal)
          (m ((c : Thread Cert.KernelIdeal.nD Cert.KernelIdeal.τ).loc Cert.KernelIdeal.main_arg0))
          (m ((c : Thread Cert.KernelIdeal.nD Cert.KernelIdeal.τ).loc Cert.KernelIdeal.main_arg1)) := by
  funext i
  rw [Cert.ReferenceIdeal.Read.val_main_v22_apply, Cert.ReferenceIdeal.Read.val_main_v21_apply]
  show FloatOps.hostDivf (Host.reduceAdd (F := Ideal) (φ := .f32) (Cert.KernelIdeal.Value.result m c) _ _ _ i) _ = _
  rw [sum24_apply]
  show FloatOps.hostDivf (F := Ideal) (φ := .f32) (_ + ∑ j : Cert.KernelIdeal.S24.Idx, Cert.KernelIdeal.Value.H m c (j 0).val) _ = _
  rw [sums_eq]
  rfl

end Cert.Proof.Bridge

end
-- ==== Proof.lean ====
/-
  The mean symmetric Hausdorff distance over 24 pairs of point sets, computed two ways.

  Each argument holds eight stacks of three point sets (1024 points in 1024 dimensions, rows the points). For every
  stack and member the symmetric Hausdorff distance of the two arguments' point sets is taken: pairwise distances from
  the expansion |x|² + |y|² − 2⟨x, y⟩ clamped at zero and rooted, the row minima maximised, the column minima maximised,
  and the larger of the two. The result is the sum of the 24 distances, from zero, divided by 24.

  The reference does this on the whole arrays at once. The kernel visits the 24 pairs one per grid point, keeps a
  24-slot block that the first point zeroes, and at each point adds the pair's distance at the pair's own slot and zero at
  every other; the lines after it sum the block and divide. Over the extended reals adding zero changes nothing, so
  after the last point slot `j` holds exactly pair `j`'s distance (Invariant), the block is written back whole
  (KernelRun), pair `3 b + k` is member `k` of stack `b` (Blocks), the kernel's per-pair arithmetic and the reference's
  read to the same function of the two point sets (Payload, RefValue), and a sum over 24 pair numbers is the sum over
  stacks and members (Members, Bridge). No step needs the inputs to be finite.

  The frames of the two kernel programs are the generated ones; the reference's frame is its generated run with the
  result dropped; the idealization rewrote nothing.
-/
import proofs.«117508_j44796508897916_1_alg».proof.Defs
import proofs.«117508_j44796508897916_1_alg».proof.Proof.Gen.Kernel
import proofs.«117508_j44796508897916_1_alg».proof.Proof.Gen.Kernel.Skeleton
import proofs.«117508_j44796508897916_1_alg».proof.Proof.Gen.Kernel.Launch
import proofs.«117508_j44796508897916_1_alg».proof.Proof.Gen.Kernel.Points
import proofs.«117508_j44796508897916_1_alg».proof.Proof.Gen.Kernel.Frame
import proofs.«117508_j44796508897916_1_alg».proof.Proof.Gen.KernelIdeal
import proofs.«117508_j44796508897916_1_alg».proof.Proof.Gen.KernelIdeal.Skeleton
import proofs.«117508_j44796508897916_1_alg».proof.Proof.Gen.KernelIdeal.Launch
import proofs.«117508_j44796508897916_1_alg».proof.Proof.Gen.KernelIdeal.Points
import proofs.«117508_j44796508897916_1_alg».proof.Proof.Gen.KernelIdeal.Frame
import proofs.«117508_j44796508897916_1_alg».proof.Proof.Gen.ReferenceIdeal
import proofs.«117508_j44796508897916_1_alg».proof.Proof.Gen.ReferenceIdeal.Run
import proofs.«117508_j44796508897916_1_alg».proof.Proof.Gen.ReferenceIdeal.Read
import proofs.«117508_j44796508897916_1_alg».proof.Proof.Gen.Pre_finite_inputs
import proofs.«117508_j44796508897916_1_alg».proof.Proof.Bridge
import Idealize.ShloMosaic.Adequacy
import Idealize.ShloMosaic.Init

noncomputable section

namespace Cert.Proof

open Idealize.ShloMosaic Idealize.SL.Sem Cert.Kernel

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both idealized programs, run from memories that agree on the two arguments, end with the mean of the 24 symmetric
    Hausdorff distances: the kernel's run read to that value, the reference's generated run read to the same. -/
theorem algebraic : Cert.algebraic_KernelIdeal_ReferenceIdeal := by
  intro m ρ m' ρ' _ hagree
  refine ⟨_, Cert.KernelIdeal.Value.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, (hagree c).1, (hagree c).2]
  exact (Cert.Proof.Bridge.result_eq m c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
